-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S4x8192x384 : Shape := ⟨3, ![4, 8192, 384]⟩
abbrev S384 : Shape := ⟨1, ![384]⟩
abbrev S768x384 : Shape := ⟨2, ![768, 384]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S4x8192x384 : S_.BroadcastsInDim S4x8192x384 (![] : Fin 0 → Fin S4x8192x384.rank)
  reducesTo_S4x8192x384_S_d0_1_2 : S4x8192x384.ReducesTo [0, 1, 2] S_
  bcast_S_S384 : S_.BroadcastsInDim S384 (![] : Fin 0 → Fin S384.rank)
  reducesTo_S384_S_d0 : S384.ReducesTo [0] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x384 .f32) (main_v13 : IVec S_ 1) (main_v16 : IVec S768x384 1) : IVec S_ 1 :=
  let main_c_5 : IVec S_ 1 := constantI S_ 1 1#1
  let main_v17 : IVec S_ 1 := (fun x v => Host.reduce IntOp.andi x v reducesTo_S768x384_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x384 .f32 := Host.absf main_arg5
  let main_cst_8 : FVec F S_ .f32 := constant S_ .f32 0x7F800000#32
  let main_v25 : FVec F S768x384 .f32 := broadcastInDim S768x384 ![] bcast_S_S768x384 main_cst_8
  let main_v26 : IVec S768x384 1 := cmpf .olt main_v24 main_v25
  let main_c_9 : IVec S_ 1 := constantI S_ 1 1#1
  let main_v27 : IVec S_ 1 := (fun x v => Host.reduce IntOp.andi x v reducesTo_S768x384_S_d0_1 h_S_) main_v26 main_c_9
  let main_v28 : IVec S_ 1 := andi main_v23 main_v27
  main_v28

def fn {F : FTy → Type} [FloatOps F] (main_arg0 : FVec F S4x8192x768 .f32) (main_arg1 : FVec F S4x8192x384 .f32) (main_arg2 : FVec F S384 .f32) (main_arg3 : FVec F S768x384 .f32) (main_arg4 : FVec F S768 .f32) (main_arg5 : FVec F S768x384 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S4x8192x384 .f32 := Host.absf main_arg1
  let main_cst_0 : FVec F S_ .f32 := constant S_ .f32 0x7F800000#32
  let main_v5 : FVec F S4x8192x384 .f32 := broadcastInDim S4x8192x384 ![] bcast_S_S4x8192x384 main_cst_0
  let main_v6 : IVec S4x8192x384 1 := cmpf .olt main_v4 main_v5
  let main_c_1 : IVec S_ 1 := constantI S_ 1 1#1
  let main_v7 : IVec S_ 1 := (fun x v => Host.reduce IntOp.andi x v reducesTo_S4x8192x384_S_d0_1_2 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S768x384 .f32 := Host.absf main_arg3
  let main_cst_4 : FVec F S_ .f32 := constant S_ .f32 0x7F800000#32
  let main_v15 : FVec F S768x384 .f32 := broadcastInDim S768x384 ![] bcast_S_S768x384 main_cst_4
  let main_v16 : IVec S768x384 1 := cmpf .olt main_v14 main_v15
  fn_part1 (F := F) main_arg4 main_arg5 main_v13 main_v16
-- ==== Kernel.lean ====
abbrev S4x8192x768 : Shape := ⟨3, ![4, 8192, 768]⟩
abbrev S4x8192x384 : Shape := ⟨3, ![4, 8192, 384]⟩
abbrev S384 : Shape := ⟨1, ![384]⟩
abbrev S768x384 : Shape := ⟨2, ![768, 384]⟩
abbrev S768 : Shape := ⟨1, ![768]⟩
abbrev S32768x768 : Shape := ⟨2, ![32768, 768]⟩
abbrev S32768x384 : Shape := ⟨2, ![32768, 384]⟩
abbrev S384x768 : Shape := ⟨2, ![384, 768]⟩
abbrev S1x768 : Shape := ⟨2, ![1, 768]⟩
abbrev S1x384 : Shape := ⟨2, ![1, 384]⟩
abbrev S512x768 : Shape := ⟨2, ![512, 768]⟩
abbrev S512x384 : Shape := ⟨2, ![512, 384]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S4x8192x768, .f32⟩
  | .hbm, ⟨1, _⟩ => ⟨S4x8192x384, .f32⟩
  | .hbm, ⟨2, _⟩ => ⟨S384, .f32⟩
  | .hbm, ⟨3, _⟩ => ⟨S768x384, .f32⟩
  | .hbm, ⟨4, _⟩ => ⟨S768, .f32⟩
  | .hbm, ⟨5, _⟩ => ⟨S768x384, .f32⟩
  | .hbm, ⟨6, _⟩ => ⟨S32768x768, .f32⟩
  | .hbm, ⟨7, _⟩ => ⟨S32768x384, .f32⟩
  | .hbm, ⟨8, _⟩ => ⟨S384x768, .f32⟩
  | .hbm, ⟨9, _⟩ => ⟨S384x768, .bf16⟩
  | .hbm, ⟨10, _⟩ => ⟨S384x768, .f32⟩
  | .hbm, ⟨11, _⟩ => ⟨S384x768, .bf16⟩
  | .hbm, ⟨12, _⟩ => ⟨S1x768, .f32⟩
  | .hbm, ⟨13, _⟩ => ⟨S1x384, .f32⟩
  | .hbm, ⟨14, _⟩ => ⟨S32768x768, .f32⟩
  | .hbm, ⟨15, _⟩ => ⟨S4x8192x768, .f32⟩
  | .local _ .vmem, ⟨0, _⟩ => ⟨S512x768, .f32⟩
  | .local _ .vmem, ⟨1, _⟩ => ⟨S512x768, .f32⟩
  | .local _ .vmem, ⟨2, _⟩ => ⟨S512x384, .f32⟩
  | .local _ .vmem, ⟨3, _⟩ => ⟨S512x384, .f32⟩
  | .local _ .vmem, ⟨4, _⟩ => ⟨S1x384, .f32⟩
  | .local _ .vmem, ⟨5, _⟩ => ⟨S384x768, .bf16⟩
  | .local _ .vmem, ⟨6, _⟩ => ⟨S1x768, .f32⟩
  | .local _ .vmem, ⟨7, _⟩ => ⟨S384x768, .bf16⟩
  | .local _ .vmem, ⟨8, _⟩ => ⟨S512x768, .f32⟩
  | .local _ .vmem, ⟨9, _⟩ => ⟨S512x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x8192x768_S32768x768 : S4x8192x768.ShapeCasts S32768x768
  shapeCasts_S4x8192x384_S32768x384 : S4x8192x384.ShapeCasts S32768x384
  transposes_S768x384_S384x768_1_0 : S768x384.Transposes [1, 0] S384x768
  bitsLt_bf16_f32 : FTy.bits .bf16 < FTy.bits .f32
  shapeCasts_S768_S1x768 : S768.ShapeCasts S1x768
  shapeCasts_S384_S1x384 : S384.ShapeCasts S1x384
  inb_S512x768_S512x768_0_0 : ∀ a, (![0, 0] : Fin 2 → Nat) a + S512x768.size a ≤ S512x768.size a
  h_S512x768 : 0 < S512x768.numel
  shapeCasts_S512x768_S512x768 : S512x768.ShapeCasts S512x768
  reduces_S512x768_S512 : S512x768.Reduces [1] S512
  shapeCasts_S512_S512x1 : S512.ShapeCasts S512x1
  broadcasts_S512x1_S512x768 : S512x1.Broadcasts S512x768
  inb_S512x384_S512x384_0_0 : ∀ a, (![0, 0] : Fin 2 → Nat) a + S512x384.size a ≤ S512x384.size a
  h_S512x384 : 0 < S512x384.numel
  shapeCasts_S512x384_S512x384 : S512x384.ShapeCasts S512x384
  reduces_S512x384_S512 : S512x384.Reduces [1] S512
  broadcasts_S512x1_S512x384 : S512x1.Broadcasts S512x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S32768x768_S4x8192x768 : S32768x768.ShapeCasts S4x8192x768
  dot_S512x384_S384x768_S512x768_1_0_0_1_n_n_wf : DotDims.WF S512x384 S384x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S32768x768.size a
  hwx0_0 : ∀ i : grid0.Coords, EltTy.bits .f32 = 32 ∨ (Rect.block (s := S32768x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x384.size a ≤ S32768x384.size a
  hwx0_1 : ∀ i : grid0.Coords, EltTy.bits .f32 = 32 ∨ (Rect.block (s := S32768x384) S512x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x768.size a ≤ S384x768.size a
  hwx0_3 : ∀ i : grid0.Coords, EltTy.bits .bf16 = 32 ∨ (Rect.block (s := S384x768) S384x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x768.size a ≤ S384x768.size a
  hwx0_5 : ∀ i : grid0.Coords, EltTy.bits .bf16 = 32 ∨ (Rect.block (s := S384x768) S384x768.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S32768x768.size a
  hwx0_6 : ∀ i : grid0.Coords, EltTy.bits .f32 = 32 ∨ (Rect.block (s := S32768x768) S512x768.size (cc0_transform_6 i) (hinb0_6 i)).WholeWords (EltTy.packing .f32)

variable [Facts₀]

def dot_S512x384_S384x768_S512x768_1_0_0_1_n_n : DotDims S512x384 S384x768 S512x768 where
  lhsContracting := [1]
  rhsContracting := [0]
  lhsNonContracting := [0]
  rhsNonContracting := [1]
  lhsBatch := []
  rhsBatch := []
  wf := dot_S512x384_S384x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S384x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S384x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S4x8192x384 : Shape := ⟨3, ![4, 8192, 384]⟩
abbrev S384 : Shape := ⟨1, ![384]⟩
abbrev S768x384 : Shape := ⟨2, ![768, 384]⟩
abbrev S768 : Shape := ⟨1, ![768]⟩
abbrev S_ : Shape := ⟨0, ![]⟩
abbrev S4x8192 : Shape := ⟨2, ![4, 8192]⟩
abbrev S4x8192x1 : Shape := ⟨3, ![4, 8192, 1]⟩
abbrev S1x1x384 : Shape := ⟨3, ![1, 1, 384]⟩
abbrev S1x1x768 : Shape := ⟨3, ![1, 1, 768]⟩

abbrev nBuf : Space → Nat
  | .hbm => 70
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192x384, .f32⟩
  | .hbm, ⟨2, _⟩ => ⟨S384, .f32⟩
  | .hbm, ⟨3, _⟩ => ⟨S768x384, .f32⟩
  | .hbm, ⟨4, _⟩ => ⟨S768, .f32⟩
  | .hbm, ⟨5, _⟩ => ⟨S768x384, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S4x8192x768, .f32⟩
  | .hbm, ⟨13, _⟩ => ⟨S4x8192x768, .f32⟩
  | .hbm, ⟨14, _⟩ => ⟨S4x8192x768, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x768, .f32⟩
  | .hbm, ⟨22, _⟩ => ⟨S4x8192x768, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x768, .f32⟩
  | .hbm, ⟨28, _⟩ => ⟨S4x8192x768, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S4x8192x384, .f32⟩
  | .hbm, ⟨36, _⟩ => ⟨S4x8192x384, .f32⟩
  | .hbm, ⟨37, _⟩ => ⟨S4x8192x384, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x384, .f32⟩
  | .hbm, ⟨45, _⟩ => ⟨S4x8192x384, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S4x8192x384, .f32⟩
  | .hbm, ⟨51, _⟩ => ⟨S4x8192x384, .f32⟩
  | .hbm, ⟨52, _⟩ => ⟨S1x1x384, .f32⟩
  | .hbm, ⟨53, _⟩ => ⟨S4x8192x384, .f32⟩
  | .hbm, ⟨54, _⟩ => ⟨S4x8192x384, .f32⟩
  | .hbm, ⟨55, _⟩ => ⟨S4x8192x768, .f32⟩
  | .hbm, ⟨56, _⟩ => ⟨S1x1x768, .f32⟩
  | .hbm, ⟨57, _⟩ => ⟨S4x8192x768, .f32⟩
  | .hbm, ⟨58, _⟩ => ⟨S4x8192x768, .f32⟩
  | .hbm, ⟨59, _⟩ => ⟨S4x8192x768, .f32⟩
  | .hbm, ⟨60, _⟩ => ⟨S4x8192x768, .f32⟩
  | .hbm, ⟨61, _⟩ => ⟨S_, .f32⟩
  | .hbm, ⟨62, _⟩ => ⟨S4x8192x768, .f32⟩
  | .hbm, ⟨63, _⟩ => ⟨S4x8192x768, .f32⟩
  | .hbm, ⟨64, _⟩ => ⟨S_, .f32⟩
  | .hbm, ⟨65, _⟩ => ⟨S4x8192x768, .f32⟩
  | .hbm, ⟨66, _⟩ => ⟨S4x8192x768, .f32⟩
  | .hbm, ⟨67, _⟩ => ⟨S4x8192x768, .f32⟩
  | .hbm, ⟨68, _⟩ => ⟨S4x8192x768, .f32⟩
  | .hbm, ⟨69, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  reducesTo_S4x8192x768_S4x8192_d2 : S4x8192x768.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x768_0_1_2 : S4x8192x1.BroadcastsInDim S4x8192x768 (![0, 1, 2] : Fin 3 → Fin S4x8192x768.rank)
  reducesTo_S4x8192x384_S4x8192_d2 : S4x8192x384.ReducesTo [2] S4x8192
  bcast_S4x8192x1_S4x8192x384_0_1_2 : S4x8192x1.BroadcastsInDim S4x8192x384 (![0, 1, 2] : Fin 3 → Fin S4x8192x384.rank)
  bcast_S384_S1x1x384_2 : S384.BroadcastsInDim S1x1x384 (![2] : Fin 1 → Fin S1x1x384.rank)
  bcast_S1x1x384_S4x8192x384_0_1_2 : S1x1x384.BroadcastsInDim S4x8192x384 (![0, 1, 2] : Fin 3 → Fin S4x8192x384.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  bcast_S_S4x8192x768 : S_.BroadcastsInDim S4x8192x768 (![] : Fin 0 → Fin S4x8192x768.rank)
  dot_S4x8192x384_S768x384_S4x8192x768_2_1_01_0_n_n_wf : DotDims.WF S4x8192x384 S768x384 S4x8192x768 [2] [1] [0, 1] [0] [] []

variable [Facts₀]

def dot_S4x8192x384_S768x384_S4x8192x768_2_1_01_0_n_n : DotDims S4x8192x384 S768x384 S4x8192x768 where
  lhsContracting := [2]
  rhsContracting := [1]
  lhsNonContracting := [0, 1]
  rhsNonContracting := [0]
  lhsBatch := []
  rhsBatch := []
  wf := dot_S4x8192x384_S768x384_S4x8192x768_2_1_01_0_n_n_wf

class Facts : Prop extends Facts₀ where

variable [Facts]
-- ==== Proof.Consts.lean ====
/-
  The float constants the two programs spell, as the extended reals their bit patterns denote: the two row
  lengths 768 and 384 that the means divide by, the variance offset (the single-precision number nearest
  to 1e-5, which is 10995116 · 2⁻⁴⁰), and the unit of the reference's expanded sigmoid. All that the
  normalisation law needs of the first three is that each is a positive real.
-/
import Idealize.ShloMosaic.PureOps.Ideal

noncomputable section

namespace Cert.AdaNorm.Consts

open Idealize.ShloMosaic

/-- The divisor of the wide rows' means denotes the real 768. -/
theorem ofBits_768 : Ideal.ofBits .f32 0x44400000#32 = ((768 : ℝ) : EReal) := by
  simp [Ideal.ofBits, Ideal.ieee, -EReal.coe_mul]; norm_num

/-- The divisor of the narrow rows' means denotes the real 384. -/
theorem ofBits_384 : Ideal.ofBits .f32 0x43C00000#32 = ((384 : ℝ) : EReal) := by
  simp [Ideal.ofBits, Ideal.ieee, -EReal.coe_mul]; norm_num

/-- The unit of the expanded sigmoid denotes 1. -/
theorem ofBits_one : Ideal.ofBits .f32 0x3F800000#32 = 1 := by
  simp [Ideal.ofBits, Ideal.ieee, -EReal.coe_mul]; norm_num

/-- The variance offset denotes a positive real. -/
theorem ofBits_eps : ∃ E : ℝ, 0 < E ∧ Ideal.ofBits .f32 0x3727C5AC#32 = (E : EReal) := by
  refine ⟨10995116 * (2 : ℝ) ^ (-40 : Int), by positivity, ?_⟩
  simp [Ideal.ofBits, Ideal.ieee, -EReal.coe_mul]

end Cert.AdaNorm.Consts

end
-- ==== Proof.RowNorm.lean ====
/-
  Normalising one row. For a row x over a finite index set and a divisor d, the mean is (Σ x) / d, the
  centred row is x − mean, and the variance is (Σ (x − mean)²) / d. The kernel scales the centred row by
  the reciprocal square root of variance + e; the reference divides it by the square root of variance + e.
  On the extended reals these two differ in general (at an infinite or a negative argument), but for a row
  of real numbers, a positive real divisor and a positive real offset the variance is a non-negative real,
  variance + e is a positive real r, and both forms are the centred entry times 1 / √r.
-/
import Idealize.ShloMosaic.PureOps.Ideal

noncomputable section

namespace Cert.AdaNorm

open Idealize.ShloMosaic

variable {ι : Type} [Fintype ι]

/-- The mean of a row, with the row length given as the divisor. -/
def mean (d : EReal) (x : ι → EReal) : EReal := Ideal.div (∑ k, x k) d

/-- The row with its mean taken off. -/
def centred (d : EReal) (x : ι → EReal) (j : ι) : EReal := x j - mean d x

/-- The mean of the centred row's squares. -/
def variance (d : EReal) (x : ι → EReal) : EReal := Ideal.div (∑ k, centred d x k * centred d x k) d

/-- The kernel's form: times the reciprocal square root. -/
def normMul (d e : EReal) (x : ι → EReal) (j : ι) : EReal := centred d x j * Ideal.rsqrt (variance d x + e)

/-- The reference's form: divided by the square root. -/
def normDiv (d e : EReal) (x : ι → EReal) (j : ι) : EReal := Ideal.div (centred d x j) (Ideal.sqrt (variance d x + e))

/-- A finite sum of reals, taken in the extended reals, is the real sum. -/
theorem coe_sum (f : ι → ℝ) : (∑ k, (f k : EReal)) = ((∑ k, f k : ℝ) : EReal) := by
  classical
  refine Finset.induction_on (Finset.univ : Finset ι) (by simp) ?_
  intro a s ha ih
  rw [Finset.sum_insert ha, Finset.sum_insert ha, ih, EReal.coe_add]

/-- For a real row, a positive real divisor and a positive real offset the two forms agree. -/
theorem normMul_eq_normDiv {D E : ℝ} (hD : 0 < D) (hE : 0 < E) (x : ι → EReal) (hx : ∀ k, ∃ r : ℝ, x k = (r : EReal)) :
    normMul (D : EReal) (E : EReal) x = normDiv (D : EReal) (E : EReal) x := by
  choose xr hxr using hx
  obtain rfl : x = fun k => (xr k : EReal) := funext hxr
  have hD0 : D ≠ 0 := ne_of_gt hD
  -- the mean is a real
  have hmean : mean (D : EReal) (fun k => (xr k : EReal)) = (((∑ k, xr k) * (1 / D) : ℝ) : EReal) := by
    unfold mean; rw [Ideal.div_coe hD0, coe_sum, ← EReal.coe_mul]
  -- so is every centred entry
  have hc : ∀ j, centred (D : EReal) (fun k => (xr k : EReal)) j = ((xr j - (∑ k, xr k) * (1 / D) : ℝ) : EReal) := by
    intro j; unfold centred; rw [hmean, ← EReal.coe_sub]
  -- and the variance, which is moreover non-negative
  have hv : variance (D : EReal) (fun k => (xr k : EReal))
      = (((∑ k, (xr k - (∑ k, xr k) * (1 / D)) * (xr k - (∑ k, xr k) * (1 / D))) * (1 / D) : ℝ) : EReal) := by
    unfold variance
    rw [Ideal.div_coe hD0, show (∑ k, centred (D : EReal) (fun k => (xr k : EReal)) k * centred (D : EReal) (fun k => (xr k : EReal)) k)
        = ∑ k, (((xr k - (∑ k, xr k) * (1 / D)) * (xr k - (∑ k, xr k) * (1 / D)) : ℝ) : EReal) from
          Finset.sum_congr rfl fun k _ => by rw [hc k, ← EReal.coe_mul], coe_sum, ← EReal.coe_mul]
  have hV : 0 ≤ (∑ k, (xr k - (∑ k, xr k) * (1 / D)) * (xr k - (∑ k, xr k) * (1 / D))) * (1 / D) :=
    mul_nonneg (Finset.sum_nonneg fun k _ => mul_self_nonneg _) (by positivity)
  funext j
  unfold normMul normDiv
  rw [hc j, hv, ← EReal.coe_add]
  set r : ℝ := (∑ k, (xr k - (∑ k, xr k) * (1 / D)) * (xr k - (∑ k, xr k) * (1 / D))) * (1 / D) + E with hr
  have hrpos : 0 < r := by rw [hr]; exact add_pos_of_nonneg_of_pos hV hE
  have hsq : Real.sqrt r ≠ 0 := ne_of_gt (Real.sqrt_pos.2 hrpos)
  rw [Ideal.rsqrt_coe, Ideal.sqrt_coe, if_neg (not_lt.2 hrpos.le), if_neg (ne_of_gt hrpos), if_neg (not_lt.2 hrpos.le),
    Ideal.div_coe hsq]
  simp only [one_div]

end Cert.AdaNorm

end
-- ==== Proof.Spec.lean ====
/-
  What both programs compute, as one function of the six argument arrays.

  Row (b, n) of the result depends on row (b, n) of `a` (768 entries) and row (b, n) of `s` (384 entries):
  with â the normalised row of `a` and ŝ the normalised row of `s` scaled entrywise by `ln_s_w`,
      out[b, n, q] = sigmoid (Σ_k ŝ[k] · W_s[q, k] + b_s[q]) · â[q] + Σ_k ŝ[k] · W_nb[q, k].
  The kernel normalises with the reciprocal square root and the reference with a quotient by the square root;
  everything else is the same expression, so the two results agree wherever the two normalisations do: on
  real rows of `a` and `s`. The weights and the bias need not be finite for that.
-/
import proofs.«171792_j5789615915151_1_alg».proof.Proof.Consts
import proofs.«171792_j5789615915151_1_alg».proof.Proof.RowNorm
import Idealize.ShloMosaic.Lib.ValueIdx

noncomputable section

namespace Cert.AdaNorm

open Idealize.ShloMosaic Idealize.ShloMosaic.ValueIdx

/-- The divisor of a wide row's mean, the divisor of a narrow row's mean, and the variance offset, as the
    programs spell them. -/
abbrev dWide : EReal := Ideal.ofBits .f32 0x44400000#32
abbrev dNarrow : EReal := Ideal.ofBits .f32 0x43C00000#32
abbrev offset : EReal := Ideal.ofBits .f32 0x3727C5AC#32

/-- One output entry from a normalised wide row `an`, a scaled normalised narrow row `sn`, the gate's weights
    and bias and the skip's weights: the gate is the sigmoid of the narrow row's product with row `q` of the
    gate weights plus the bias; the entry is gate · an[q] plus the narrow row's product with row `q` of the
    skip weights. -/
def gated (an : Fin 768 → EReal) (sn : Fin 384 → EReal) (Wg : Fin 768 → Fin 384 → EReal) (bg : Fin 768 → EReal)
    (Wk : Fin 768 → Fin 384 → EReal) (q : Fin 768) : EReal :=
  Ideal.logistic ((∑ k, sn k * Wg q k) + bg q) * an q + ∑ k, sn k * Wk q k

/-- A row of the result as the kernel forms it. -/
def rowMul (xa : Fin 768 → EReal) (xs w : Fin 384 → EReal) (Wg : Fin 768 → Fin 384 → EReal) (bg : Fin 768 → EReal)
    (Wk : Fin 768 → Fin 384 → EReal) (q : Fin 768) : EReal :=
  gated (normMul dWide offset xa) (fun k => normMul dNarrow offset xs k * w k) Wg bg Wk q

/-- A row of the result as the reference forms it. -/
def rowDiv (xa : Fin 768 → EReal) (xs w : Fin 384 → EReal) (Wg : Fin 768 → Fin 384 → EReal) (bg : Fin 768 → EReal)
    (Wk : Fin 768 → Fin 384 → EReal) (q : Fin 768) : EReal :=
  gated (normDiv dWide offset xa) (fun k => normDiv dNarrow offset xs k * w k) Wg bg Wk q

/-- On real rows of `a` and `s` the two forms are one function. -/
theorem rowMul_eq_rowDiv (xa : Fin 768 → EReal) (xs w : Fin 384 → EReal) (Wg : Fin 768 → Fin 384 → EReal) (bg : Fin 768 → EReal)
    (Wk : Fin 768 → Fin 384 → EReal) (hxa : ∀ k, ∃ r : ℝ, xa k = (r : EReal)) (hxs : ∀ k, ∃ r : ℝ, xs k = (r : EReal)) :
    rowMul xa xs w Wg bg Wk = rowDiv xa xs w Wg bg Wk := by
  obtain ⟨E, hE, he⟩ := Consts.ofBits_eps
  funext q
  unfold rowMul rowDiv dWide dNarrow offset
  rw [Consts.ofBits_768, Consts.ofBits_384, he,
    normMul_eq_normDiv (by norm_num : (0 : ℝ) < 768) hE xa hxa, normMul_eq_normDiv (by norm_num : (0 : ℝ) < 384) hE xs hxs]

/-! ## The whole arrays -/

abbrev ShA : Shape := ⟨3, ![4, 8192, 768]⟩
abbrev ShS : Shape := ⟨3, ![4, 8192, 384]⟩
abbrev ShV384 : Shape := ⟨1, ![384]⟩
abbrev ShV768 : Shape := ⟨1, ![768]⟩
abbrev ShW : Shape := ⟨2, ![768, 384]⟩

/-- The result array in the kernel's form. -/
def resultMul (a : FVec Ideal ShA .f32) (s : FVec Ideal ShS .f32) (lnw : FVec Ideal ShV384 .f32) (Wg : FVec Ideal ShW .f32)
    (bg : FVec Ideal ShV768 .f32) (Wk : FVec Ideal ShW .f32) : FVec Ideal ShA .f32 := fun i =>
  rowMul (fun j => a (ix3 (i 0) (i 1) j)) (fun k => s (ix3 (i 0) (i 1) k)) (fun k => lnw (ix1 k))
    (fun q k => Wg (ix2 q k)) (fun q => bg (ix1 q)) (fun q k => Wk (ix2 q k)) (i 2)

/-- The result array in the reference's form. -/
def resultDiv (a : FVec Ideal ShA .f32) (s : FVec Ideal ShS .f32) (lnw : FVec Ideal ShV384 .f32) (Wg : FVec Ideal ShW .f32)
    (bg : FVec Ideal ShV768 .f32) (Wk : FVec Ideal ShW .f32) : FVec Ideal ShA .f32 := fun i =>
  rowDiv (fun j => a (ix3 (i 0) (i 1) j)) (fun k => s (ix3 (i 0) (i 1) k)) (fun k => lnw (ix1 k))
    (fun q k => Wg (ix2 q k)) (fun q => bg (ix1 q)) (fun q k => Wk (ix2 q k)) (i 2)

/-- Where every entry of `a` and of `s` is a real number the two result arrays are equal. -/
theorem resultMul_eq_resultDiv (a : FVec Ideal ShA .f32) (s : FVec Ideal ShS .f32) (lnw : FVec Ideal ShV384 .f32)
    (Wg : FVec Ideal ShW .f32) (bg : FVec Ideal ShV768 .f32) (Wk : FVec Ideal ShW .f32)
    (ha : ∀ i, ∃ r : ℝ, a i = (r : EReal)) (hs : ∀ i, ∃ r : ℝ, s i = (r : EReal)) :
    resultMul a s lnw Wg bg Wk = resultDiv a s lnw Wg bg Wk := by
  funext i
  unfold resultMul resultDiv
  rw [rowMul_eq_rowDiv _ _ _ _ _ _ (fun k => ha _) (fun k => hs _)]

end Cert.AdaNorm

end
-- ==== Proof.Columns.lean ====
/-
  Column vectors read at an index. A sum along the rows of an [a, b] block is kept as an [a, 1] column
  (first an [a] vector, then a trailing unit axis) and spread back over the b columns. Read at
  coordinates: the column at (i, 0) is the vector at i; the spread column at (p, c) is the column at (p, 0);
  and the vector of row sums at p is the sum over k of the block at (p, k).
-/
import Idealize.ShloMosaic.Lib.ValueLayout
import Idealize.ShloMosaic.PureOps.Ideal.Laws

noncomputable section

namespace Cert.AdaNorm.Columns

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sums along the rows of an `[a, b]` block, from a zero start, read at row `p`: the sum over `k` of the
    block at `(p, k)`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

end Cert.AdaNorm.Columns

end
-- ==== Proof.Blocks.lean ====
/-
  A block of rows normalised the way the kernel does it, read at an entry. For an [a, b] block X the kernel
  forms the column of row sums, divides it by the row length d, spreads it over the columns and subtracts:
  the centred block. It then forms the column of the centred block's row sums of squares, divides by d, adds
  the offset e, takes the reciprocal square root, spreads that over the columns and multiplies. At (p, q)
  this is the q-th entry of row p of X, normalised: only row p enters.
-/
import proofs.«171792_j5789615915151_1_alg».proof.Proof.Columns
import proofs.«171792_j5789615915151_1_alg».proof.Proof.RowNorm
import Idealize.ShloMosaic.Lib.ValueIdx

noncomputable section

namespace Cert.AdaNorm.Blocks

open Idealize.ShloMosaic Idealize.ShloMosaic.ValueIdx Cert.AdaNorm Cert.AdaNorm.Columns

variable {a b : ℕ}

/-- The column of row means: row sums from a zero start, kept as a column, over the splat divisor. -/
def meanCol (X : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (hc : (⟨1, ![a]⟩ : Shape).ShapeCasts ⟨2, ![a, 1]⟩)
    (d : EReal) : FVec Ideal ⟨2, ![a, 1]⟩ .f32 :=
  divf (shapeCast ⟨2, ![a, 1]⟩ (multiReduction .add [1] ⟨1, ![a]⟩ X 0x00000000#32 h hφ hacc) hc) (broadcast ⟨2, ![a, 1]⟩ d)

/-- The block with each row's mean taken off. -/
def centredBlock (X : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (hc : (⟨1, ![a]⟩ : Shape).ShapeCasts ⟨2, ![a, 1]⟩)
    (hb : (⟨2, ![a, 1]⟩ : Shape).Broadcasts ⟨2, ![a, b]⟩) (d : EReal) : FVec Ideal ⟨2, ![a, b]⟩ .f32 :=
  subf X (broadcastTo ⟨2, ![a, b]⟩ (meanCol X h hφ hacc hc d) hb)

/-- The centred block scaled by the reciprocal square root of each row's variance plus the offset. -/
def normBlock (X : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (hc : (⟨1, ![a]⟩ : Shape).ShapeCasts ⟨2, ![a, 1]⟩)
    (hb : (⟨2, ![a, 1]⟩ : Shape).Broadcasts ⟨2, ![a, b]⟩) (d e : EReal) : FVec Ideal ⟨2, ![a, b]⟩ .f32 :=
  mulf (centredBlock X h hφ hacc hc hb d)
    (broadcastTo ⟨2, ![a, b]⟩
      (rsqrt (addf (meanCol (mulf (centredBlock X h hφ hacc hc hb d) (centredBlock X h hφ hacc hc hb d)) h hφ hacc hc d)
        (broadcast ⟨2, ![a, 1]⟩ e))) hb)

variable (X : FVec Ideal ⟨2, ![a, b]⟩ .f32) (h : (⟨2, ![a, b]⟩ : Shape).Reduces [1] ⟨1, ![a]⟩) (hφ : FKind.Formats .f32)
  (hacc : (0x00000000#32 : BitVec 32) = FKind.add.neutral .f32 hφ) (hc : (⟨1, ![a]⟩ : Shape).ShapeCasts ⟨2, ![a, 1]⟩)
  (hb : (⟨2, ![a, 1]⟩ : Shape).Broadcasts ⟨2, ![a, b]⟩) (d e : EReal)

/-- The mean column at row `p` is the sum of row `p` over the divisor. -/
theorem meanCol_apply (p : Fin a) (u : Fin 1) :
    meanCol X h hφ hacc hc d (ix2 p u) = Ideal.div (∑ k : Fin b, X (ix2 p k)) d := by
  unfold meanCol
  rw [divf_apply, shapeCast_a_a1_apply, rowSum_apply, broadcast_apply]

/-- The centred block at `(p, q)` is entry `q` of row `p` centred. -/
theorem centredBlock_apply (p : Fin a) (q : Fin b) :
    centredBlock X h hφ hacc hc hb d (ix2 p q) = centred d (fun j => X (ix2 p j)) q := by
  unfold centredBlock
  rw [subf_apply, broadcastTo_a1_ab_apply, meanCol_apply]
  rfl

/-- The normalised block at `(p, q)` is entry `q` of row `p` normalised. -/
theorem normBlock_apply (p : Fin a) (q : Fin b) :
    normBlock X h hφ hacc hc hb d e (ix2 p q) = normMul d e (fun j => X (ix2 p j)) q := by
  unfold normBlock
  rw [mulf_apply, broadcastTo_a1_ab_apply, centredBlock_apply]
  show _ * Ideal.rsqrt (meanCol _ h hφ hacc hc d (ix2 p (0 : Fin 1)) + e) = _
  rw [meanCol_apply]
  unfold normMul variance
  refine congrArg (fun t => _ * Ideal.rsqrt (Ideal.div t d + e)) (Finset.sum_congr rfl fun k _ => ?_)
  rw [mulf_apply, centredBlock_apply]

end Cert.AdaNorm.Blocks

end
-- ==== Proof.Payload.lean ====
/-
  The kernel body's three values, each read at an entry (p, q) of its block.

  The first is the block of `a` rows normalised; the second is the block of `s` rows normalised and scaled
  entrywise by the one row of `ln_s_w` (the change to the short float format is the identity on extended
  reals). The third combines them: with ŝ the second value, G and K the two [384, 768] weight blocks and β the
  one row of bias,
      sigmoid (Σ_k ŝ[p, k] · G[k, q] + β[0, q]) · â[p, q] + Σ_k ŝ[p, k] · K[k, q];
  each matrix product accumulates into zero, so it is the plain sum over the contracted coordinate.
-/
import proofs.«171792_j5789615915151_1_alg».proof.Proof.Gen.KernelIdeal.Skeleton
import proofs.«171792_j5789615915151_1_alg».proof.Proof.Spec
import proofs.«171792_j5789615915151_1_alg».proof.Proof.Blocks
import Idealize.ShloMosaic.Lib.ValueLayout
import Idealize.ShloMosaic.PureOps.Ideal.Laws

noncomputable section

namespace Cert.AdaNorm.Payload

open Idealize.ShloMosaic Idealize.ShloMosaic.ValueIdx Cert.KernelIdeal Cert.KernelIdeal.Gen
open Cert.AdaNorm Cert.AdaNorm.Blocks

/-! ## The two normalised blocks -/

/-- The first value is the wide block normalised. -/
theorem wide_eq (x0 : FVec Ideal S512x768 .f32) :
    k0_pay2 (F := Ideal) x0
      = normBlock x0 Facts₀.reduces_S512x768_S512 (.inl rfl) rfl Facts₀.shapeCasts_S512_S512x1 Facts₀.broadcasts_S512x1_S512x768 dWide offset := by
  unfold k0_pay2 normBlock centredBlock meanCol
  simp only [shapeCast_self]
  rfl

/-- At `(p, q)`: entry `q` of row `p` of the block, normalised. -/
theorem wide_apply (x0 : FVec Ideal S512x768 .f32) (p : Fin 512) (q : Fin 768) :
    k0_pay2 (F := Ideal) x0 (ix2 p q) = normMul dWide offset (fun j => x0 (ix2 p j)) q :=
  (congrFun (wide_eq x0) (ix2 p q)).trans (normBlock_apply x0 _ _ _ _ _ dWide offset p q)

/-- At `(p, k)`: entry `k` of row `p` of the narrow block, normalised, times entry `k` of the scale row. -/
theorem narrow_apply (x1 : FVec Ideal S512x384 .f32) (x2 : FVec Ideal S1x384 .f32) (p : Fin 512) (k : Fin 384) :
    k0_pay3 (F := Ideal) x1 x2 (ix2 p k) = normMul dNarrow offset (fun j => x1 (ix2 p j)) k * x2 (ix2 (0 : Fin 1) k) := by
  unfold k0_pay3
  simp only [shapeCast_self]
  rw [truncf_apply, mulf_apply, broadcastTo_1b_ab_apply]
  show normBlock x1 Facts₀.reduces_S512x384_S512 (.inl rfl) rfl Facts₀.shapeCasts_S512_S512x1 Facts₀.broadcasts_S512x1_S512x384 dNarrow offset (ix2 p k) * _ = _
  exact congrArg (fun t => t * x2 (ix2 (0 : Fin 1) k)) (normBlock_apply x1 _ _ _ _ _ dNarrow offset p k)

/-! ## A matrix product into zero, read at an entry -/

theorem lhs_0 (i : S512x768.Idx) (c : dot_S512x384_S384x768_S512x768_1_0_0_1_n_n.contr.Idx) :
    (dot_S512x384_S384x768_S512x768_1_0_0_1_n_n.lhsIdx i c 0).val = (i 0).val := by
  unfold DotDims.lhsIdx
  rw [dif_neg (show ¬(0 : Fin S512x384.rank) ∈ dot_S512x384_S384x768_S512x768_1_0_0_1_n_n.lhsBatch by decide), dif_pos (show (0 : Fin S512x384.rank) ∈ dot_S512x384_S384x768_S512x768_1_0_0_1_n_n.lhsNonContracting by decide)]
  rfl
theorem lhs_1 (i : S512x768.Idx) (c : dot_S512x384_S384x768_S512x768_1_0_0_1_n_n.contr.Idx) :
    (dot_S512x384_S384x768_S512x768_1_0_0_1_n_n.lhsIdx i c 1).val = (c ⟨0, by decide⟩).val :=
  dot_S512x384_S384x768_S512x768_1_0_0_1_n_n.lhsIdx_val_of_single rfl i c
theorem rhs_0 (i : S512x768.Idx) (c : dot_S512x384_S384x768_S512x768_1_0_0_1_n_n.contr.Idx) :
    (dot_S512x384_S384x768_S512x768_1_0_0_1_n_n.rhsIdx i c 0).val = (c ⟨0, by decide⟩).val :=
  dot_S512x384_S384x768_S512x768_1_0_0_1_n_n.rhsIdx_val_of_single rfl i c
theorem rhs_1 (i : S512x768.Idx) (c : dot_S512x384_S384x768_S512x768_1_0_0_1_n_n.contr.Idx) :
    (dot_S512x384_S384x768_S512x768_1_0_0_1_n_n.rhsIdx i c 1).val = (i 1).val := by
  unfold DotDims.rhsIdx
  rw [dif_neg (show ¬(1 : Fin S384x768.rank) ∈ dot_S512x384_S384x768_S512x768_1_0_0_1_n_n.rhsBatch by decide), dif_pos (show (1 : Fin S384x768.rank) ∈ dot_S512x384_S384x768_S512x768_1_0_0_1_n_n.rhsNonContracting by decide)]
  rfl

/-- A [512, 384] block times a [384, 768] block, accumulated into zero, at `(p, q)`: the sum over the 384
    contracted coordinates of left `(p, k)` times right `(k, q)`. -/
theorem product_apply (L : FVec Ideal S512x384 .bf16) (R : FVec Ideal S384x768 .bf16) (p : Fin 512) (q : Fin 768) :
    matmul dot_S512x384_S384x768_S512x768_1_0_0_1_n_n none L R (constant S512x768 .f32 0x00000000#32) (ix2 p q)
      = ∑ k : Fin 384, L (ix2 p k) * R (ix2 k q) := by
  simp only [matmul]
  rw [Ideal.matmul_constant_zero_apply, ← Equiv.sum_comp (ValueIdx.contrEquiv1 dot_S512x384_S384x768_S512x768_1_0_0_1_n_n 384 rfl rfl).symm]
  refine Finset.sum_congr rfl fun k _ => ?_
  have hk := ValueIdx.contrEquiv1_symm_val dot_S512x384_S384x768_S512x768_1_0_0_1_n_n 384 rfl rfl k
  have el : dot_S512x384_S384x768_S512x768_1_0_0_1_n_n.lhsIdx (ix2 p q) ((ValueIdx.contrEquiv1 dot_S512x384_S384x768_S512x768_1_0_0_1_n_n 384 rfl rfl).symm k) = ix2 p k := funext fun a => Fin.ext (by
    match a with
    | ⟨0, _⟩ => exact lhs_0 _ _
    | ⟨1, _⟩ => exact (lhs_1 _ _).trans hk)
  have er : dot_S512x384_S384x768_S512x768_1_0_0_1_n_n.rhsIdx (ix2 p q) ((ValueIdx.contrEquiv1 dot_S512x384_S384x768_S512x768_1_0_0_1_n_n 384 rfl rfl).symm k) = ix2 k q := funext fun a => Fin.ext (by
    match a with
    | ⟨0, _⟩ => exact (rhs_0 _ _).trans hk
    | ⟨1, _⟩ => exact rhs_1 _ _)
  rw [el, er]

/-! ## The combined value -/

/-- The third value at `(p, q)`. -/
theorem combine_apply (v17 : FVec Ideal S512x768 .f32) (v40 : FVec Ideal S512x384 .bf16) (v41 : FVec Ideal S384x768 .bf16)
    (v44 : FVec Ideal S1x768 .f32) (v49 : FVec Ideal S384x768 .bf16) (p : Fin 512) (q : Fin 768) :
    k0_pay1 (F := Ideal) v17 v40 v41 v44 v49 (ix2 p q)
      = Ideal.logistic ((∑ k : Fin 384, v40 (ix2 p k) * v41 (ix2 k q)) + v44 (ix2 (0 : Fin 1) q)) * v17 (ix2 p q)
        + ∑ k : Fin 384, v40 (ix2 p k) * v49 (ix2 k q) := by
  unfold k0_pay1
  simp only [shapeCast_self]
  rw [addf_apply, mulf_apply, product_apply]
  show Ideal.logistic (addf (F := Ideal) (s := S512x768) (φ := .f32) _ _ (ix2 p q)) * _ + _ = _
  rw [addf_apply, product_apply, broadcastTo_1b_ab_apply]

end Cert.AdaNorm.Payload

end
-- ==== Proof.KernelBlocks.lean ====
/-
  From the kernel's blocks to its output array. Grid point t handles rows 512·t … 512·t + 511: its blocks of
  `a` and `s` are those rows, the weights, the bias and the scale are fetched whole, and it writes back those
  rows of the output. So every row of the [32768, 768] output is written by exactly one point, and entry
  (r, q) of the array after the run is the row function of row r of the two flattened inputs.
-/
import proofs.«171792_j5789615915151_1_alg».proof.Proof.Gen.KernelIdeal.Frame
import proofs.«171792_j5789615915151_1_alg».proof.Proof.Payload
import Idealize.ShloMosaic.Lib.Pipeline.Value

set_option maxRecDepth 16384

noncomputable section

namespace Cert.AdaNorm.Kernel

open Idealize.ShloMosaic Idealize.ShloMosaic.TcCoe Idealize.ShloMosaic.ValueIdx Idealize.SL.Sem
open Cert.KernelIdeal Cert.KernelIdeal.Gen Cert.AdaNorm

/-- Entry `(r, q)` of the flat result from the six arrays the region reads: the flattened `a` and `s`, the scale
    as one row, the two weight matrices transposed, the bias as one row. -/
def flatAt (A : FVec Ideal S32768x768 .f32) (S : FVec Ideal S32768x384 .f32) (w : FVec Ideal S1x384 .f32)
    (G : FVec Ideal S384x768 .bf16) (β : FVec Ideal S1x768 .f32) (K : FVec Ideal S384x768 .bf16) (r : Fin 32768) (q : Fin 768) : EReal :=
  rowMul (fun j => A (ix2 r j)) (fun k => S (ix2 r k)) (fun k => w (ix2 (0 : Fin 1) k)) (fun q k => G (ix2 k q))
    (fun q => β (ix2 (0 : Fin 1) q)) (fun q k => K (ix2 k q)) q

/-- The flat result array. -/
def flat (A : FVec Ideal S32768x768 .f32) (S : FVec Ideal S32768x384 .f32) (w : FVec Ideal S1x384 .f32)
    (G : FVec Ideal S384x768 .bf16) (β : FVec Ideal S1x768 .f32) (K : FVec Ideal S384x768 .bf16) : FVec Ideal S32768x768 .f32 :=
  fun i => flatAt A S w G β K (i 0) (i 1)

theorem hz : (![0, 0] : Fin 2 → Nat) = fun _ => 0 := funext fun a => by fin_cases a <;> rfl

/-- What the body leaves in the output block, at `(p, q)`: the row function of row `p` of the two input blocks. -/
theorem out_apply (x0 : FVec Ideal S512x768 .f32) (x1 : FVec Ideal S512x384 .f32) (x2 : FVec Ideal S1x384 .f32)
    (x3 : FVec Ideal S384x768 .bf16) (x4 : FVec Ideal S1x768 .f32) (x5 : FVec Ideal S384x768 .bf16) (p : Fin 512) (q : Fin 768) :
    out0_6 (F := Ideal) x0 x1 x2 x3 x4 x5 (ix2 p q)
      = rowMul (fun j => x0 (ix2 p j)) (fun k => x1 (ix2 p k)) (fun k => x2 (ix2 (0 : Fin 1) k)) (fun q k => x3 (ix2 k q))
          (fun q => x4 (ix2 (0 : Fin 1) q)) (fun q k => x5 (ix2 k q)) q := by
  unfold out0_6
  rw [View.canon_unit_zero hz]
  simp only [View.ld_unit_zero (S := S512x768) hz, View.ld_unit_zero (S := S512x384) hz, View.ld_unit_zero (S := S1x384) hz,
    View.ld_unit_zero (S := S384x768) hz, View.ld_unit_zero (S := S1x768) hz]
  rw [Payload.combine_apply, Payload.wide_apply]
  simp only [Payload.narrow_apply]
  rfl

/-- The printed index maps over the grid: point `t` takes block row `t` of `a`, of `s` and of the output, and block
    `(0, 0)` of everything else. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (m : (ℓ : Loc nD τ sig) → Buf (Elt Ideal) ℓ)

/-- What point `t` writes back is block `t` of the flat result of the arrays as the region finds them. -/
theorem flushed_eq (c : Dev nD) (t : Fin cfg0.N) :
    (dats m 0 c).flushed 6 t = ((cfg0.win 6).blk t).view.read (Elt Ideal)
      (flat (V m c main_v0) (V m c main_v1) (V m c main_v7) (V m c main_v3) (V m c main_v6) (V m c main_v5)) := by
  show (cfg0.win 6).cut (grid0.coords t) ((dats m 0 c).after 6 t) = _
  rw [after0_6]
  funext j
  obtain ⟨p, q, rfl⟩ : ∃ (p : Fin 512) (q : Fin 768), j = ix2 p q := ⟨j 0, j 1, eq_ix2 j⟩
  show out0_6 (iblk m c 0 t) (iblk m c 1 t) (iblk m c 2 t) (iblk m c 3 t) (iblk m c 4 t) (iblk m c 5 t) (ix2 p q)
    = flat (V m c main_v0) (V m c main_v1) (V m c main_v7) (V m c main_v3) (V m c main_v6) (V m c main_v5)
        (((cfg0.win 6).blk t).view.emb (ix2 p q))
  refine (out_apply (iblk m c 0 t) (iblk m c 1 t) (iblk m c 2 t) (iblk m c 3 t) (iblk m c 4 t) (iblk m c 5 t) p q).trans ?_
  obtain ⟨a00, a01, a10, a11, a20, a21, a30, a31, a40, a41, a50, a51, a60, a61⟩ := idx_facts t
  have ht : t.val < 64 := by have h1 : t.val < grid0.N := t.isLt; rwa [N_0] at h1
  have hp : p.val < 512 := p.isLt
  -- the array row this block row is
  let r : Fin 32768 := ⟨t.val * 512 + p.val, by omega⟩
  have e6 : ((cfg0.win 6).blk t).view.emb (ix2 p q) = (ix2 r q : S32768x768.Idx) := by
    funext a; apply Fin.ext
    match a with
    | ⟨0, _⟩ => show win0_6.index t (0 : Fin 2) * 512 + 1 * p.val = t.val * 512 + p.val; omega
    | ⟨1, _⟩ => show win0_6.index t (1 : Fin 2) * 768 + 1 * q.val = q.val; omega
  have f0 : (fun j : Fin 768 => iblk m c 0 t (ix2 p j)) = fun j => V m c main_v0 (ix2 r j) := funext fun j => by
    show V m c main_v0 (((cfg0.win 0).blk t).view.emb (ix2 p j)) = V m c main_v0 (ix2 r j)
    have e : ((cfg0.win 0).blk t).view.emb (ix2 p j) = (ix2 r j : S32768x768.Idx) := by
      funext a; apply Fin.ext
      match a with
      | ⟨0, _⟩ => show win0_0.index t (0 : Fin 2) * 512 + 1 * p.val = t.val * 512 + p.val; omega
      | ⟨1, _⟩ => show win0_0.index t (1 : Fin 2) * 768 + 1 * j.val = j.val; omega
    rw [e]
  have f1 : (fun k : Fin 384 => iblk m c 1 t (ix2 p k)) = fun k => V m c main_v1 (ix2 r k) := funext fun k => by
    show V m c main_v1 (((cfg0.win 1).blk t).view.emb (ix2 p k)) = V m c main_v1 (ix2 r k)
    have e : ((cfg0.win 1).blk t).view.emb (ix2 p k) = (ix2 r k : S32768x384.Idx) := by
      funext a; apply Fin.ext
      match a with
      | ⟨0, _⟩ => show win0_1.index t (0 : Fin 2) * 512 + 1 * p.val = t.val * 512 + p.val; omega
      | ⟨1, _⟩ => show win0_1.index t (1 : Fin 2) * 384 + 1 * k.val = k.val; omega
    rw [e]
  have f2 : (fun k : Fin 384 => iblk m c 2 t (ix2 (0 : Fin 1) k)) = fun k => V m c main_v7 (ix2 (0 : Fin 1) k) := funext fun k => by
    show V m c main_v7 (((cfg0.win 2).blk t).view.emb (ix2 (0 : Fin 1) k)) = V m c main_v7 (ix2 (0 : Fin 1) k)
    have e : ((cfg0.win 2).blk t).view.emb (ix2 (0 : Fin 1) k) = (ix2 (0 : Fin 1) k : S1x384.Idx) := by
      funext a; apply Fin.ext
      match a with
      | ⟨0, _⟩ => show win0_2.index t (0 : Fin 2) * 1 + 1 * 0 = 0; omega
      | ⟨1, _⟩ => show win0_2.index t (1 : Fin 2) * 384 + 1 * k.val = k.val; omega
    rw [e]
  have f3 : (fun (q : Fin 768) (k : Fin 384) => iblk m c 3 t (ix2 k q)) = fun q k => V m c main_v3 (ix2 k q) := funext fun q => funext fun k => by
    show V m c main_v3 (((cfg0.win 3).blk t).view.emb (ix2 k q)) = V m c main_v3 (ix2 k q)
    have e : ((cfg0.win 3).blk t).view.emb (ix2 k q) = (ix2 k q : S384x768.Idx) := by
      funext a; apply Fin.ext
      match a with
      | ⟨0, _⟩ => show win0_3.index t (0 : Fin 2) * 384 + 1 * k.val = k.val; omega
      | ⟨1, _⟩ => show win0_3.index t (1 : Fin 2) * 768 + 1 * q.val = q.val; omega
    rw [e]
  have f4 : (fun q : Fin 768 => iblk m c 4 t (ix2 (0 : Fin 1) q)) = fun q => V m c main_v6 (ix2 (0 : Fin 1) q) := funext fun q => by
    show V m c main_v6 (((cfg0.win 4).blk t).view.emb (ix2 (0 : Fin 1) q)) = V m c main_v6 (ix2 (0 : Fin 1) q)
    have e : ((cfg0.win 4).blk t).view.emb (ix2 (0 : Fin 1) q) = (ix2 (0 : Fin 1) q : S1x768.Idx) := by
      funext a; apply Fin.ext
      match a with
      | ⟨0, _⟩ => show win0_4.index t (0 : Fin 2) * 1 + 1 * 0 = 0; omega
      | ⟨1, _⟩ => show win0_4.index t (1 : Fin 2) * 768 + 1 * q.val = q.val; omega
    rw [e]
  have f5 : (fun (q : Fin 768) (k : Fin 384) => iblk m c 5 t (ix2 k q)) = fun q k => V m c main_v5 (ix2 k q) := funext fun q => funext fun k => by
    show V m c main_v5 (((cfg0.win 5).blk t).view.emb (ix2 k q)) = V m c main_v5 (ix2 k q)
    have e : ((cfg0.win 5).blk t).view.emb (ix2 k q) = (ix2 k q : S384x768.Idx) := by
      funext a; apply Fin.ext
      match a with
      | ⟨0, _⟩ => show win0_5.index t (0 : Fin 2) * 384 + 1 * k.val = k.val; omega
      | ⟨1, _⟩ => show win0_5.index t (1 : Fin 2) * 768 + 1 * q.val = q.val; omega
    rw [e]
  rw [e6, f0, f1, f2, f3, f4, f5]
  rfl

/-- An index of the output array is in point `t`'s block iff each coordinate is in the block's range on its axis. -/
theorem mem_blk (t : Fin cfg0.N) (i : S32768x768.Idx) :
    i ∈ ((cfg0.win 6).blk t).view.set ↔ ∀ a : Fin 2, win0_6.index t a * S512x768.size a ≤ (i a).val ∧ (i a).val < win0_6.index t a * S512x768.size a + S512x768.size a := by
  show i ∈ ((View.whole main_v8).slice (win0_6.rect t)).set ↔ _
  rw [View.set_slice_whole, Rect.mem_set_unit]
  exact Iff.rfl

/-- Every entry of the output array lies in some point's block: row `r` in the block of point `r / 512`. -/
theorem cover (i : S32768x768.Idx) : ∃ t : Fin cfg0.N, (cfg0.win 6).flush t = true ∧ i ∈ ((cfg0.win 6).blk t).view.set := by
  have hi0 : (i 0).val < 32768 := (i 0).isLt
  have hi1 : (i 1).val < 768 := (i 1).isLt
  have hlt : (i 0).val / 512 < grid0.N := by rw [N_0]; omega
  obtain ⟨-, -, -, -, -, -, -, -, -, -, -, -, a60, a61⟩ := idx_facts ⟨(i 0).val / 512, hlt⟩
  refine ⟨⟨(i 0).val / 512, hlt⟩, flush0_6 _, ?_⟩
  rw [mem_blk]
  intro a
  match a with
  | ⟨0, _⟩ =>
    show win0_6.index ⟨(i 0).val / 512, hlt⟩ (0 : Fin 2) * 512 ≤ (i 0).val ∧ (i 0).val < win0_6.index ⟨(i 0).val / 512, hlt⟩ (0 : Fin 2) * 512 + 512
    have e : win0_6.index ⟨(i 0).val / 512, hlt⟩ (0 : Fin 2) = (i 0).val / 512 := a60
    omega
  | ⟨1, _⟩ =>
    show win0_6.index ⟨(i 0).val / 512, hlt⟩ (1 : Fin 2) * 768 ≤ (i 1).val ∧ (i 1).val < win0_6.index ⟨(i 0).val / 512, hlt⟩ (1 : Fin 2) * 768 + 768
    omega

/-- The output array after the run: the flat result of the arrays as the region finds them. -/
theorem final (c : Dev nD) : (dats m 0 c).arrAt 6 cfg0.N
    = flat (V m c main_v0) (V m c main_v1) (V m c main_v7) (V m c main_v3) (V m c main_v6) (V m c main_v5) :=
  (dats m 0 c).arrAt_eq_of_cover 6 _ (fun t _ => flushed_eq m c t) cover

end Cert.AdaNorm.Kernel

end
-- ==== Proof.KernelRun.lean ====
/-
  The kernel's program end to end. Before the region the host flattens `a` and `s` to [32768, ·], transposes
  the two weight matrices (the change of float format is the identity on extended reals) and gives the scale and
  the bias a leading unit axis; after it the host folds the [32768, 768] output back to [4, 8192, 768]. Row
  b · 8192 + n of a flattened array is row (b, n) of the original, so the result at (b, n, q) is the row function
  of rows (b, n) of `a` and `s`: the specification's array in the kernel's form.
-/
import proofs.«171792_j5789615915151_1_alg».proof.Proof.KernelBlocks
import Idealize.ShloMosaic.Lib.StableHlo.Run
import Idealize.ShloMosaic.Lib.ValueLayout

set_option maxRecDepth 16384

noncomputable section

namespace Cert.AdaNorm.Kernel

open Idealize.ShloMosaic Idealize.ShloMosaic.TcCoe Idealize.ShloMosaic.ValueIdx Idealize.SL.Sem
open Cert.KernelIdeal Cert.KernelIdeal.Gen Cert.AdaNorm

variable (m : (ℓ : Loc nD τ sig) → Buf (Elt Ideal) ℓ) (ρ : Dev nD → PrngReg)

/-! ## The arrays the region finds -/

theorem entry_a (c : Dev nD) : (V m c main_v0 : S32768x768.Idx → EReal)
    = shapeCast S32768x768 (m ((c : Thread nD τ).loc main_arg0)) Facts₀.shapeCasts_S4x8192x768_S32768x768 := by
  show StableHlo.after hostOps0 (fun b => m (c, b)) (Proc.devRef .tc main_v0) = _
  after_results
  rfl

theorem entry_s (c : Dev nD) : (V m c main_v1 : S32768x384.Idx → EReal)
    = shapeCast S32768x384 (m ((c : Thread nD τ).loc main_arg1)) Facts₀.shapeCasts_S4x8192x384_S32768x384 := by
  show StableHlo.after hostOps0 (fun b => m (c, b)) (Proc.devRef .tc main_v1) = _
  after_results
  rfl

theorem entry_scale (c : Dev nD) : (V m c main_v7 : S1x384.Idx → EReal)
    = shapeCast S1x384 (m ((c : Thread nD τ).loc main_arg2)) Facts₀.shapeCasts_S384_S1x384 := by
  show StableHlo.after hostOps0 (fun b => m (c, b)) (Proc.devRef .tc main_v7) = _
  after_results
  rfl

theorem entry_gate (c : Dev nD) : (V m c main_v3 : S384x768.Idx → EReal)
    = truncf (F := Ideal) .bf16 (transpose S384x768 [1, 0] (m ((c : Thread nD τ).loc main_arg3)) Facts₀.transposes_S768x384_S384x768_1_0) Facts₀.bitsLt_bf16_f32 := by
  show StableHlo.after hostOps0 (fun b => m (c, b)) (Proc.devRef .tc main_v3) = _
  after_results

theorem entry_bias (c : Dev nD) : (V m c main_v6 : S1x768.Idx → EReal)
    = shapeCast S1x768 (m ((c : Thread nD τ).loc main_arg4)) Facts₀.shapeCasts_S768_S1x768 := by
  show StableHlo.after hostOps0 (fun b => m (c, b)) (Proc.devRef .tc main_v6) = _
  after_results
  rfl

theorem entry_skip (c : Dev nD) : (V m c main_v5 : S384x768.Idx → EReal)
    = truncf (F := Ideal) .bf16 (transpose S384x768 [1, 0] (m ((c : Thread nD τ).loc main_arg5)) Facts₀.transposes_S768x384_S384x768_1_0) Facts₀.bitsLt_bf16_f32 := by
  show StableHlo.after hostOps0 (fun b => m (c, b)) (Proc.devRef .tc main_v5) = _
  after_results

/-! ## The line after the region -/

/-- The result buffer is the output array folded back to three axes. -/
theorem tail_eq (c : Dev nD) : (Pipeline.afterTail₀ cfgs (dats m) 0 (V0 m) [hostOps1] c main_v9 : S4x8192x768.Idx → EReal)
    = shapeCast S4x8192x768 ((dats m 0 c).arrAt 6 cfg0.N) Facts₀.shapeCasts_S32768x768_S4x8192x768 := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.tc.devRef main_v8)
        = (dats m 0 c).arrAt 6 cfg0.N from
      Pipeline.withArrays_arr spec0 launch0.win.arr_inj c (V0 m c) (fun w => (dats m 0 c).arrAt w cfg0.N) 6]
  rfl

/-! ## The result -/

/-- The result buffer holds the specification's array, in the kernel's form, of the six arguments. -/
theorem result_eq (c : Dev nD) :
    (Pipeline.afterTail₀ cfgs (dats m) 0 (V0 m) [hostOps1] c main_v9 : S4x8192x768.Idx → EReal)
      = resultMul (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_eq, final]
  funext i
  obtain ⟨b, n, q, rfl⟩ : ∃ (b : Fin 4) (n : Fin 8192) (q : Fin 768), i = ix3 b n q := ⟨i 0, i 1, i 2, eq_ix3 i⟩
  have hb : b.val < 4 := b.isLt
  have hn : n.val < 8192 := n.isLt
  let r : Fin 32768 := ⟨b.val * 8192 + n.val, by omega⟩
  rw [shapeCast_apply _ Facts₀.shapeCasts_S32768x768_S4x8192x768 (ix3 b n q) (ix2 r q : S32768x768.Idx) (by
    rw [Shape.rowMajor_val_two, Shape.rowMajor_val_three]
    show (b.val * 8192 + n.val) * 768 + q.val = (b.val * 8192 + n.val) * 768 + q.val
    rfl)]
  show flatAt (V m c main_v0) (V m c main_v1) (V m c main_v7) (V m c main_v3) (V m c main_v6) (V m c main_v5) r q
    = rowMul (fun j => m ((c : Thread nD τ).loc main_arg0) (ix3 b n j)) (fun k => m ((c : Thread nD τ).loc main_arg1) (ix3 b n k))
        (fun k => m ((c : Thread nD τ).loc main_arg2) (ix1 k)) (fun q k => m ((c : Thread nD τ).loc main_arg3) (ix2 q k))
        (fun q => m ((c : Thread nD τ).loc main_arg4) (ix1 q)) (fun q k => m ((c : Thread nD τ).loc main_arg5) (ix2 q k)) q
  unfold flatAt
  have g0 : (fun j : Fin 768 => V m c main_v0 (ix2 r j)) = fun j => m ((c : Thread nD τ).loc main_arg0) (ix3 b n j) := funext fun j => by
    rw [entry_a]
    exact shapeCast_apply (s := S4x8192x768) (t := S32768x768) _ Facts₀.shapeCasts_S4x8192x768_S32768x768 (ix2 r j) (ix3 b n j) (by
      show (S4x8192x768.rowMajor (ix3 b n j)).val = (S32768x768.rowMajor (ix2 r j)).val
      rw [Shape.rowMajor_val_two, Shape.rowMajor_val_three]
      rfl)
  have g1 : (fun k : Fin 384 => V m c main_v1 (ix2 r k)) = fun k => m ((c : Thread nD τ).loc main_arg1) (ix3 b n k) := funext fun k => by
    rw [entry_s]
    exact shapeCast_apply (s := S4x8192x384) (t := S32768x384) _ Facts₀.shapeCasts_S4x8192x384_S32768x384 (ix2 r k) (ix3 b n k) (by
      show (S4x8192x384.rowMajor (ix3 b n k)).val = (S32768x384.rowMajor (ix2 r k)).val
      rw [Shape.rowMajor_val_two, Shape.rowMajor_val_three]
      rfl)
  have g2 : (fun k : Fin 384 => V m c main_v7 (ix2 (0 : Fin 1) k)) = fun k => m ((c : Thread nD τ).loc main_arg2) (ix1 k) := funext fun k => by
    rw [entry_scale]
    exact shapeCast_a_1a_apply _ _ _ _
  have g3 : (fun (q : Fin 768) (k : Fin 384) => V m c main_v3 (ix2 k q)) = fun q k => m ((c : Thread nD τ).loc main_arg3) (ix2 q k) := funext fun q => funext fun k => by
    rw [entry_gate, truncf_apply]
    exact transpose_ix2_apply _ _ _ _
  have g4 : (fun q : Fin 768 => V m c main_v6 (ix2 (0 : Fin 1) q)) = fun q => m ((c : Thread nD τ).loc main_arg4) (ix1 q) := funext fun q => by
    rw [entry_bias]
    exact shapeCast_a_1a_apply _ _ _ _
  have g5 : (fun (q : Fin 768) (k : Fin 384) => V m c main_v5 (ix2 k q)) = fun q k => m ((c : Thread nD τ).loc main_arg5) (ix2 q k) := funext fun q => funext fun k => by
    rw [entry_skip, truncf_apply]
    exact transpose_ix2_apply _ _ _ _
  rw [g0, g1, g2, g3, g4, g5]

/-! ## The run -/

/-- Every weakly fair execution of the kernel's program ends with the result buffer at the specification's array
    (kernel's form) of the arguments, and the arguments unchanged. -/
theorem run : θ_run defs (onTc (τ := τ) (main (F := Ideal))) ⟨m, fun _ => 0, ρ⟩ (fun r => ∀ c : Dev nD,
      r.2.mem ((c.tc : Thread nD τ).loc main_v9)
        = resultMul (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.AdaNorm.Kernel

end
-- ==== Proof.RefValue.lean ====
/-
  The reference's result, read one stage at a time at coordinates (b, n, ·), is the specification's array in the
  reference's form. Each stage's entry depends on row (b, n) of `a` or of `s` only: the row sum (the host's sum
  starts from the zero word, which adds nothing), the mean, the centred row, the variance, the quotient by the
  square root, the scale by `ln_s_w`; then the two products with the weight matrices over the 384 shared
  coordinates, the bias, and the sigmoid, which the reference spells 1 / (1 + exp (−x)): the sigmoid's own
  definition on the extended reals, the unit word denoting 1.
-/
import proofs.«171792_j5789615915151_1_alg».proof.Proof.Gen.ReferenceIdeal.Read
import proofs.«171792_j5789615915151_1_alg».proof.Proof.Spec
import Idealize.ShloMosaic.PureOps.Ideal.Laws

noncomputable section

namespace Cert.AdaNorm.Reference

open Idealize.ShloMosaic Idealize.ShloMosaic.ValueIdx Cert.ReferenceIdeal Cert.ReferenceIdeal.Read Cert.AdaNorm

/-- Two indices of rank one, two or three are equal when their coordinates are. -/
local macro "coords1" : tactic => `(tactic| (funext a; apply Fin.ext; match a with | ⟨0, _⟩ => rfl))
local macro "coords2" : tactic => `(tactic| (funext a; apply Fin.ext; match a with | ⟨0, _⟩ => rfl | ⟨1, _⟩ => rfl))
local macro "coords3" : tactic => `(tactic| (funext a; apply Fin.ext; match a with | ⟨0, _⟩ => rfl | ⟨1, _⟩ => rfl | ⟨2, _⟩ => rfl))

variable (x0 : (⟨S4x8192x768, .f32⟩ : BufTy).Contents (Elt Ideal)) (x1 : (⟨S4x8192x384, .f32⟩ : BufTy).Contents (Elt Ideal))
  (x2 : (⟨S384, .f32⟩ : BufTy).Contents (Elt Ideal)) (x3 : (⟨S768x384, .f32⟩ : BufTy).Contents (Elt Ideal))
  (x4 : (⟨S768, .f32⟩ : BufTy).Contents (Elt Ideal)) (x5 : (⟨S768x384, .f32⟩ : BufTy).Contents (Elt Ideal))
  (b : Fin 4) (n : Fin 8192)

/-! ## Row (b, n) of `a` -/

theorem sum_a : val_main_v0 (F := Ideal) x0 (ix2 b n) = ∑ k : Fin 768, x0 (ix3 b n k) := by
  rw [val_main_v0_apply]
  show Ideal.ofBits .f32 0x00000000#32 + _ = _
  rw [Ideal.ofBits_zero_f32, zero_add]
  exact Finset.sum_congr rfl fun k _ => congrArg x0 (by coords3)

theorem mean_a (u : Fin 1) : val_main_v3 (F := Ideal) x0 (ix3 b n u) = mean dWide (fun j => x0 (ix3 b n j)) := by
  rw [val_main_v3_apply, val_main_v1_apply, show idx_main_v1 (ix3 b n u) = ix2 b n from by coords2, sum_a]
  rfl

theorem centred_a (j : Fin 768) : val_main_v5 (F := Ideal) x0 (ix3 b n j) = centred dWide (fun j => x0 (ix3 b n j)) j := by
  rw [val_main_v5_apply, val_main_v4_apply, show idx_main_v4 (ix3 b n j) = ix3 b n (0 : Fin 1) from by coords3, mean_a]
  rfl

theorem centred_a' (j : Fin 768) : val_main_v12 (F := Ideal) x0 (ix3 b n j) = centred dWide (fun j => x0 (ix3 b n j)) j := by
  rw [val_main_v12_apply, val_main_v11_apply, show idx_main_v11 (ix3 b n j) = ix3 b n (0 : Fin 1) from by coords3, mean_a]
  rfl

theorem variance_a (u : Fin 1) : val_main_v10 (F := Ideal) x0 (ix3 b n u) = variance dWide (fun j => x0 (ix3 b n j)) := by
  rw [val_main_v10_apply, val_main_v8_apply, show idx_main_v8 (ix3 b n u) = ix2 b n from by coords2, val_main_v7_apply]
  show Ideal.div (Ideal.ofBits .f32 0x00000000#32 + _) _ = _
  rw [Ideal.ofBits_zero_f32, zero_add]
  unfold variance
  refine congrArg (fun t => Ideal.div t _) (Finset.sum_congr rfl fun k _ => ?_)
  rw [show idx_main_v7 (ix2 b n) k = ix3 b n k from by coords3, val_main_v6_apply, centred_a]
  rfl

theorem norm_a (q : Fin 768) : val_main_v17 (F := Ideal) x0 (ix3 b n q) = normDiv dWide offset (fun j => x0 (ix3 b n j)) q := by
  rw [val_main_v17_apply, centred_a', val_main_v16_apply, show idx_main_v16 (ix3 b n q) = ix3 b n (0 : Fin 1) from by coords3,
    val_main_v15_apply, val_main_v14_apply, variance_a]
  rfl

/-! ## Row (b, n) of `s` -/

theorem sum_s : val_main_v18 (F := Ideal) x1 (ix2 b n) = ∑ k : Fin 384, x1 (ix3 b n k) := by
  rw [val_main_v18_apply]
  show Ideal.ofBits .f32 0x00000000#32 + _ = _
  rw [Ideal.ofBits_zero_f32, zero_add]
  exact Finset.sum_congr rfl fun k _ => congrArg x1 (by coords3)

theorem mean_s (u : Fin 1) : val_main_v21 (F := Ideal) x1 (ix3 b n u) = mean dNarrow (fun j => x1 (ix3 b n j)) := by
  rw [val_main_v21_apply, val_main_v19_apply, show idx_main_v19 (ix3 b n u) = ix2 b n from by coords2, sum_s]
  rfl

theorem centred_s (k : Fin 384) : val_main_v23 (F := Ideal) x1 (ix3 b n k) = centred dNarrow (fun j => x1 (ix3 b n j)) k := by
  rw [val_main_v23_apply, val_main_v22_apply, show idx_main_v22 (ix3 b n k) = ix3 b n (0 : Fin 1) from by coords3, mean_s]
  rfl

theorem centred_s' (k : Fin 384) : val_main_v30 (F := Ideal) x1 (ix3 b n k) = centred dNarrow (fun j => x1 (ix3 b n j)) k := by
  rw [val_main_v30_apply, val_main_v29_apply, show idx_main_v29 (ix3 b n k) = ix3 b n (0 : Fin 1) from by coords3, mean_s]
  rfl

theorem variance_s (u : Fin 1) : val_main_v28 (F := Ideal) x1 (ix3 b n u) = variance dNarrow (fun j => x1 (ix3 b n j)) := by
  rw [val_main_v28_apply, val_main_v26_apply, show idx_main_v26 (ix3 b n u) = ix2 b n from by coords2, val_main_v25_apply]
  show Ideal.div (Ideal.ofBits .f32 0x00000000#32 + _) _ = _
  rw [Ideal.ofBits_zero_f32, zero_add]
  unfold variance
  refine congrArg (fun t => Ideal.div t _) (Finset.sum_congr rfl fun k _ => ?_)
  rw [show idx_main_v25 (ix2 b n) k = ix3 b n k from by coords3, val_main_v24_apply, centred_s]
  rfl

theorem norm_s (k : Fin 384) : val_main_v35 (F := Ideal) x1 (ix3 b n k) = normDiv dNarrow offset (fun j => x1 (ix3 b n j)) k := by
  rw [val_main_v35_apply, centred_s', val_main_v34_apply, show idx_main_v34 (ix3 b n k) = ix3 b n (0 : Fin 1) from by coords3,
    val_main_v33_apply, val_main_v32_apply, variance_s]
  rfl

/-- The normalised row of `s` scaled entrywise. -/
theorem scaled_s (k : Fin 384) :
    val_main_v38 (F := Ideal) x1 x2 (ix3 b n k) = normDiv dNarrow offset (fun j => x1 (ix3 b n j)) k * x2 (ix1 k) := by
  rw [val_main_v38_apply, norm_s, val_main_v37_apply, val_main_v36_apply]
  exact congrArg (fun t => _ * x2 t) (by coords1)

/-! ## The gate, the skip and the result -/

theorem gate_product (q : Fin 768) : val_main_v39 (F := Ideal) x1 x2 x3 (ix3 b n q)
    = ∑ k : Fin 384, (normDiv dNarrow offset (fun j => x1 (ix3 b n j)) k * x2 (ix1 k)) * x3 (ix2 q k) := by
  rw [val_main_v39_apply]
  refine Finset.sum_congr rfl fun k _ => ?_
  rw [show lidx_main_v39 (ix3 b n q) k = ix3 b n k from by coords3, show ridx_main_v39 (ix3 b n q) k = ix2 q k from by coords2, scaled_s]

theorem skip_product (q : Fin 768) : val_main_v49 (F := Ideal) x1 x2 x5 (ix3 b n q)
    = ∑ k : Fin 384, (normDiv dNarrow offset (fun j => x1 (ix3 b n j)) k * x2 (ix1 k)) * x5 (ix2 q k) := by
  rw [val_main_v49_apply]
  refine Finset.sum_congr rfl fun k _ => ?_
  rw [show lidx_main_v49 (ix3 b n q) k = ix3 b n k from by coords3, show ridx_main_v49 (ix3 b n q) k = ix2 q k from by coords2, scaled_s]

theorem logits (q : Fin 768) : val_main_v42 (F := Ideal) x1 x2 x3 x4 (ix3 b n q)
    = (∑ k : Fin 384, (normDiv dNarrow offset (fun j => x1 (ix3 b n j)) k * x2 (ix1 k)) * x3 (ix2 q k)) + x4 (ix1 q) := by
  rw [val_main_v42_apply, gate_product, val_main_v41_apply, val_main_v40_apply]
  exact congrArg (fun t => _ + x4 t) (by coords1)

theorem gate (q : Fin 768) : val_main_v48 (F := Ideal) x1 x2 x3 x4 (ix3 b n q)
    = Ideal.logistic ((∑ k : Fin 384, (normDiv dNarrow offset (fun j => x1 (ix3 b n j)) k * x2 (ix1 k)) * x3 (ix2 q k)) + x4 (ix1 q)) := by
  rw [val_main_v48_apply, val_main_v47_apply, val_main_v46_apply, val_main_v45_apply, val_main_v44_apply, val_main_v43_apply, logits]
  show Ideal.div (Ideal.ofBits .f32 0x3F800000#32) (Ideal.ofBits .f32 0x3F800000#32 + Ideal.exp (-_)) = _
  rw [Consts.ofBits_one]
  rfl

/-- The reference's result is the specification's array in the reference's form. -/
theorem result_eq : val_main_v51 (F := Ideal) x0 x1 x2 x3 x4 x5 = resultDiv x0 x1 x2 x3 x4 x5 := by
  funext i
  obtain ⟨b, n, q, rfl⟩ : ∃ (b : Fin 4) (n : Fin 8192) (q : Fin 768), i = ix3 b n q := ⟨i 0, i 1, i 2, eq_ix3 i⟩
  rw [val_main_v51_apply, val_main_v50_apply, gate, norm_a, skip_product]
  rfl

end Cert.AdaNorm.Reference

end
-- ==== Proof.Finite.lean ====
/-
  What the precondition gives: every entry of `a` and of `s` is a real number. The predicate is the conjunction
  of six "all entries have absolute value below +∞" tests; the first two are the ones the normalisation law
  needs. The infinity word denotes ⊤, the absolute value is max x (−x), and an extended real with
  max x (−x) < ⊤ is neither ⊤ nor ⊥.
-/
import proofs.«171792_j5789615915151_1_alg».proof.Pre_finite_inputs
import Idealize.ShloMosaic.Lib.ReduceAll
import Idealize.ShloMosaic.Lib.ValueIdx
import Idealize.ShloMosaic.PureOps.Ideal

noncomputable section

namespace Cert.AdaNorm.Finite

open Idealize.ShloMosaic

/-- The word of the bound denotes +∞. -/
theorem top_word : Ideal.ofBits .f32 0x7F800000#32 = (⊤ : EReal) := by
  simp [Ideal.ofBits, Ideal.ieee]

/-- An extended real whose absolute value tests below +∞ is a real number. -/
theorem real_of_abs_lt_top (x : EReal) (h : Ideal.cmp .olt (max x (-x)) (Ideal.ofBits .f32 0x7F800000#32) = 1#1) :
    ∃ r : ℝ, x = (r : EReal) := by
  rw [top_word] at h
  have hlt : max x (-x) < ⊤ := by
    by_contra hn
    simp [Ideal.cmp, hn] at h
  induction x using EReal.rec with
  | bot => simp at hlt
  | coe r => exact ⟨r, rfl⟩
  | top => simp at hlt

instance : Subsingleton Cert.Pre_finite_inputs.S_.Idx := ⟨fun a b => funext fun d => d.elim0⟩

variable [Cert.Pre_finite_inputs.Facts]

/-- Under the precondition every entry of the first two arguments is real. -/
theorem real_entries (a : FVec Ideal Cert.Pre_finite_inputs.S4x8192x768 .f32) (s : FVec Ideal Cert.Pre_finite_inputs.S4x8192x384 .f32)
    (lnw : FVec Ideal Cert.Pre_finite_inputs.S384 .f32) (Wg : FVec Ideal Cert.Pre_finite_inputs.S768x384 .f32)
    (bg : FVec Ideal Cert.Pre_finite_inputs.S768 .f32) (Wk : FVec Ideal Cert.Pre_finite_inputs.S768x384 .f32)
    (h : Cert.Pre_finite_inputs.fn (F := Ideal) a s lnw Wg bg Wk = fun _ => 1#1) :
    (∀ i, ∃ r : ℝ, a i = (r : EReal)) ∧ (∀ i, ∃ r : ℝ, s i = (r : EReal)) := by
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨ha, hs⟩ := IntOp.andi_eq_one.1 h4
  exact ⟨fun i => real_of_abs_lt_top (a i) (Host.reduce_andi_all _ _ _ _ ValueIdx.ix0 ha i),
    fun i => real_of_abs_lt_top (s i) (Host.reduce_andi_all _ _ _ _ ValueIdx.ix0 hs i)⟩

end Cert.AdaNorm.Finite

end
-- ==== Proof.lean ====
/-
  A gated, doubly normalised row map: out = sigmoid (ŝ · W_sᵀ + b_s) · â + ŝ · W_nbᵀ, where â is each row of `a`
  with its mean taken off and scaled to unit variance (offset 1e-5 in single precision), and ŝ is the same of
  `s`, then scaled entrywise by `ln_s_w`. The kernel works on 512 rows at a time and scales by the reciprocal
  square root; the reference divides by the square root and spells the sigmoid as 1 / (1 + exp (−x)).

  On the extended reals the sigmoid IS that expression, the changes of float format are the identity, and a
  matrix product accumulated into zero is the plain sum, so the two programs differ only in how they normalise.
  There the two forms agree exactly when variance + offset is a positive real, which holds for rows of real
  numbers: the variance is then a non-negative real. The precondition (every input finite) gives that for
  `a` and `s`; the weights, the bias and the scale need nothing.

  The pieces: RowNorm (the law for one row), Spec (the result as one function of the six arrays, in both
  forms), Payload and KernelBlocks (what one grid point writes, and that the points' blocks tile the output),
  KernelRun (the host's reshapes and transposes around the region; the kernel's run), RefValue (the reference's
  stages read at an entry), Finite (real entries from the precondition).
-/
import proofs.«171792_j5789615915151_1_alg».proof.Defs
import proofs.«171792_j5789615915151_1_alg».proof.Proof.Gen.Kernel
import proofs.«171792_j5789615915151_1_alg».proof.Proof.Gen.Kernel.Skeleton
import proofs.«171792_j5789615915151_1_alg».proof.Proof.Gen.Kernel.Launch
import proofs.«171792_j5789615915151_1_alg».proof.Proof.Gen.Kernel.Points
import proofs.«171792_j5789615915151_1_alg».proof.Proof.Gen.Kernel.Frame
import proofs.«171792_j5789615915151_1_alg».proof.Proof.Gen.KernelIdeal
import proofs.«171792_j5789615915151_1_alg».proof.Proof.Gen.KernelIdeal.Skeleton
import proofs.«171792_j5789615915151_1_alg».proof.Proof.Gen.KernelIdeal.Launch
import proofs.«171792_j5789615915151_1_alg».proof.Proof.Gen.KernelIdeal.Points
import proofs.«171792_j5789615915151_1_alg».proof.Proof.Gen.KernelIdeal.Frame
import proofs.«171792_j5789615915151_1_alg».proof.Proof.Gen.ReferenceIdeal
import proofs.«171792_j5789615915151_1_alg».proof.Proof.Gen.ReferenceIdeal.Run
import proofs.«171792_j5789615915151_1_alg».proof.Proof.Gen.ReferenceIdeal.Read
import proofs.«171792_j5789615915151_1_alg».proof.Proof.Gen.Pre_finite_inputs
import proofs.«171792_j5789615915151_1_alg».proof.Proof.KernelRun
import proofs.«171792_j5789615915151_1_alg».proof.Proof.RefValue
import proofs.«171792_j5789615915151_1_alg».proof.Proof.Finite
import Idealize.ShloMosaic.Adequacy
import Idealize.ShloMosaic.Init

noncomputable section

namespace Cert.Proof

open Idealize.ShloMosaic Idealize.SL.Sem

/-- The word-level kernel terminates without a fault and leaves its arguments as they were. -/
theorem frame_kernel : @Cert.frame_Kernel Cert.Kernel.Gen.facts Cert.Pre_finite_inputs.Gen.facts :=
  fun m ρ _ => Cert.Kernel.Gen.frame m ρ

/-- So does the kernel read on the extended reals. -/
theorem frame_kernelIdeal : @Cert.frame_KernelIdeal Cert.KernelIdeal.Gen.facts Cert.Pre_finite_inputs.Gen.facts :=
  fun m ρ _ => Cert.KernelIdeal.Gen.frame m ρ

/-- And the reference: its run with the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the six arguments, finite by the precondition, the kernel ends at the result in its
    own form and the reference at the result in its form; the two are one array because every row of `a` and of
    `s` is real. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, Cert.AdaNorm.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.AdaNorm.Reference.result_eq,
    (hagree c).1, (hagree c).2.1, (hagree c).2.2.1, (hagree c).2.2.2.1, (hagree c).2.2.2.2.1, (hagree c).2.2.2.2.2]
  obtain ⟨ha, hs⟩ := Cert.AdaNorm.Finite.real_entries _ _ _ _ _ _ (hpre c)
  exact (Cert.AdaNorm.resultMul_eq_resultDiv _ _ _ _ _ _ ha hs).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
